-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S128x8 .f32) (main_arg7 : FVec F S128x8 .f32) (main_arg8 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x8 .f32 := Host.absf main_arg6
  let main_cst_6 : FVec F S_ .f32 := constant S_ .f32 0x7F800000#32
  let main_v20 : FVec F S128x8 .f32 := broadcastInDim S128x8 ![] bcast_S_S128x8 main_cst_6
  let main_v21 : IVec S128x8 1 := cmpf .olt main_v19 main_v20
  let main_c_7 : IVec S_ 1 := constantI S_ 1 1#1
  let main_v22 : IVec S_ 1 := (fun x v => Host.reduce IntOp.andi x v reducesTo_S128x8_S_d0_1 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x8 .f32) (main_arg7 : FVec F S128x8 .f32) (main_arg8 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x8 : Shape := ⟨2, ![1, 8]⟩
abbrev S100000x8 : Shape := ⟨2, ![100000, 8]⟩
abbrev S5000x8 : Shape := ⟨2, ![5000, 8]⟩
abbrev S5000 : Shape := ⟨1, ![5000]⟩
abbrev S5000x1 : Shape := ⟨2, ![5000, 1]⟩

abbrev nBuf : Space → Nat
  | .hbm => 39
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S128x8, .f32⟩
  | .hbm, ⟨8, _⟩ => ⟨S8, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x8, .f32⟩
  | .hbm, ⟨38, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x8, .f32⟩
  | .local _ .vmem, ⟨14, _⟩ => ⟨S128x8, .f32⟩
  | .local _ .vmem, ⟨15, _⟩ => ⟨S1x8, .f32⟩
  | .local _ .vmem, ⟨16, _⟩ => ⟨S5000x8, .f32⟩
  | .local _ .vmem, ⟨17, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x8.size a ≤ S100000x8.size a
  hwx1_5 : ∀ i : grid1.Coords, EltTy.bits .f32 = 32 ∨ (Rect.block (s := S100000x8) S5000x8.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x8 : Shape := ⟨2, ![100000, 8]⟩
abbrev S1x8 : Shape := ⟨2, ![1, 8]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S128x8, .f32⟩
  | .hbm, ⟨8, _⟩ => ⟨S8, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x8, .f32⟩
  | .hbm, ⟨45, _⟩ => ⟨S100000x8, .f32⟩
  | .hbm, ⟨46, _⟩ => ⟨S100000x8, .f32⟩
  | .hbm, ⟨47, _⟩ => ⟨S1x8, .f32⟩
  | .hbm, ⟨48, _⟩ => ⟨S100000x8, .f32⟩
  | .hbm, ⟨49, _⟩ => ⟨S100000x8, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x8, .f32⟩
  | .hbm, ⟨57, _⟩ => ⟨S100000x8, .f32⟩
  | .hbm, ⟨58, _⟩ => ⟨S100000x8, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S100000x1, .f32⟩
  | .hbm, ⟨63, _⟩ => ⟨S100000x8, .f32⟩
  | .hbm, ⟨64, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_call1_cst_0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_cst_1 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_v33 : Ref sig .tc := ⟨.hbm, 64, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x8_S100000x8_1_0_0_1_n_n_wf : DotDims.WF S100000x128 S128x8 S100000x8 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.Spec.lean ====
/-
  What the two programs compute, stated once over the extended reals and with no program in sight.

  A GraphSAGE layer with sum aggregation takes, for node r, the row a_r of the aggregated neighbour features
  and the node's own row x_r, and returns for output channel q
      pre q = (Σ_k a_r[k] · Wn[k, q]  +  Σ_k x_r[k] · Ws[k, q])  +  b[q].
  Layer one clamps this at zero from below; layer two takes the row-wise log-softmax of its eight channels,
      lsm z q = (z q − M) − log Σ_k exp (z k − M),   M = the largest of the row's entries,
  the maximum taken as a fold of max from the most negative value of the format, so that M is never above
  an entry of the row nor below that starting value.  Both programs fold from the same starting word, so the word is
  kept as it is printed and never evaluated.
-/
import Idealize.ShloMosaic.PureOps.Ideal
import Idealize.ShloMosaic.PureOps.Ideal.Laws
import Idealize.ShloMosaic.Lib.ValueIdx
import Mathlib.Data.Finset.Fold

noncomputable section

namespace Cert.Sage

open Idealize.ShloMosaic Idealize.ShloMosaic.ValueIdx

/-- Row `r` of a two-axis array, as a function of the column. -/
def rowOf {R C : Nat} (A : (⟨2, ![R, C]⟩ : Shape).Idx → EReal) (r : Fin R) : Fin C → EReal := fun k => A (ix2 r k)

/-- A two-axis array as a function of its two coordinates. -/
def matOf {R C : Nat} (W : (⟨2, ![R, C]⟩ : Shape).Idx → EReal) : Fin R → Fin C → EReal := fun k j => W (ix2 k j)

/-- A one-axis array as a function of its coordinate. -/
def vecOf {C : Nat} (b : (⟨1, ![C]⟩ : Shape).Idx → EReal) : Fin C → EReal := fun j => b (ix1 j)

/-- The first coordinate of an index of a two-axis array, at its literal extent. -/
def c0 {R C : Nat} (i : (⟨2, ![R, C]⟩ : Shape).Idx) : Fin R := ⟨(i 0).val, idx2_lt0 i⟩

/-- The second coordinate of an index of a two-axis array, at its literal extent. -/
def c1 {R C : Nat} (i : (⟨2, ![R, C]⟩ : Shape).Idx) : Fin C := ⟨(i 1).val, idx2_lt1 i⟩

theorem c0_ix2 {R C : Nat} (r : Fin R) (q : Fin C) : c0 (ix2 r q) = r := rfl
/-- Every index of a two-axis array is built from its two coordinates. -/
theorem eq_ix2_c {R C : Nat} (i : (⟨2, ![R, C]⟩ : Shape).Idx) : i = ix2 (c0 i) (c1 i) :=
  funext fun a => match a with | ⟨0, _⟩ => rfl | ⟨1, _⟩ => rfl
theorem c1_ix2 {R C : Nat} (r : Fin R) (q : Fin C) : c1 (ix2 r q) = q := rfl

/-- Channel `q` of a layer before its activation: the aggregated row against the neighbour weights, the node's own
    row against the self weights, and the bias. -/
def pre {K n : Nat} (a x : Fin K → EReal) (wn ws : Fin K → Fin n → EReal) (b : Fin n → EReal) (q : Fin n) : EReal :=
  ((∑ k : Fin K, a k * wn k q) + ∑ k : Fin K, x k * ws k q) + b q

/-- The largest entry of a row, folded from the format's most negative value. -/
def rowMax {n : Nat} (z : Fin n → EReal) : EReal :=
  (Finset.univ : Finset (Fin n)).fold max (Ideal.ofBits .f32 0xFF800000#32) z

/-- The starting value of the fold is never above the row's maximum. -/
theorem start_le_rowMax {n : Nat} (z : Fin n → EReal) : Ideal.ofBits .f32 0xFF800000#32 ≤ rowMax z :=
  (Finset.le_fold_max _).mpr (Or.inl le_rfl)

/-- Taking the maximum once more with the starting value changes nothing. -/
theorem max_start_rowMax {n : Nat} (z : Fin n → EReal) : max (Ideal.ofBits .f32 0xFF800000#32) (rowMax z) = rowMax z :=
  max_eq_right (start_le_rowMax z)

/-- The log-softmax of a row at channel `q`: the entry less the row's maximum, less the logarithm of the sum of the
    exponentials of all the entries so shifted. -/
def lsm {n : Nat} (z : Fin n → EReal) (q : Fin n) : EReal :=
  (z q - rowMax z) - Ideal.log (∑ k : Fin n, Ideal.exp (z k - rowMax z))

/-- Layer one on whole arrays: entry (r, q) from row r of the aggregate `A` and of the features `X`. -/
def layer1 {R : Nat} (A X : (⟨2, ![R, 128]⟩ : Shape).Idx → EReal) (Wn Ws : (⟨2, ![128, 128]⟩ : Shape).Idx → EReal)
    (b : Fin 128 → EReal) : (⟨2, ![R, 128]⟩ : Shape).Idx → EReal := fun i =>
  max (pre (rowOf A (c0 i)) (rowOf X (c0 i)) (matOf Wn) (matOf Ws) b (c1 i)) (Ideal.ofBits .f32 0x00000000#32)

/-- Layer two on whole arrays: entry (r, q) is the log-softmax, over the eight channels, of row r's pre-activations. -/
def layer2 {R : Nat} (A H : (⟨2, ![R, 128]⟩ : Shape).Idx → EReal) (Wn Ws : (⟨2, ![128, 8]⟩ : Shape).Idx → EReal)
    (b : Fin 8 → EReal) : (⟨2, ![R, 8]⟩ : Shape).Idx → EReal := fun i =>
  lsm (pre (rowOf A (c0 i)) (rowOf H (c0 i)) (matOf Wn) (matOf Ws) b) (c1 i)

theorem layer1_ix2 {R : Nat} (A X : (⟨2, ![R, 128]⟩ : Shape).Idx → EReal) (Wn Ws : (⟨2, ![128, 128]⟩ : Shape).Idx → EReal)
    (b : Fin 128 → EReal) (r : Fin R) (q : Fin 128) :
    layer1 A X Wn Ws b (ix2 r q)
      = max (pre (rowOf A r) (rowOf X r) (matOf Wn) (matOf Ws) b q) (Ideal.ofBits .f32 0x00000000#32) := rfl

theorem layer2_ix2 {R : Nat} (A H : (⟨2, ![R, 128]⟩ : Shape).Idx → EReal) (Wn Ws : (⟨2, ![128, 8]⟩ : Shape).Idx → EReal)
    (b : Fin 8 → EReal) (r : Fin R) (q : Fin 8) :
    layer2 A H Wn Ws b (ix2 r q) = lsm (pre (rowOf A r) (rowOf H r) (matOf Wn) (matOf Ws) b) q := rfl

/-! ## The aggregation both programs share -/

/-- Sum aggregation over the edge list, as both programs spell it on the host: a negative source index is first moved
    up by the number of nodes, the rows of `X` at the source indices are gathered, one per edge, and added into the rows
    of a zero array at the destination indices.  Neither program's certificate opens it: both apply this one function, to
    the features first and to the first layer's result afterwards, so it is carried as it stands.  The two shape records
    and the three broadcast facts are the printed program's own, passed in so that each program instantiates the same
    definition. -/
def agg (g : GatherDims ⟨2, ![100000, 128]⟩ ⟨2, ![1600000, 1]⟩ ⟨2, ![1600000, 128]⟩)
    (sc : ScatterDims ⟨2, ![100000, 128]⟩ ⟨2, ![1600000, 1]⟩ ⟨2, ![1600000, 128]⟩)
    (hb0 : (⟨0, ![]⟩ : Shape).BroadcastsInDim ⟨1, ![1600000]⟩ (![] : Fin 0 → Fin (⟨1, ![1600000]⟩ : Shape).rank))
    (hb1 : (⟨1, ![1600000]⟩ : Shape).BroadcastsInDim ⟨2, ![1600000, 1]⟩ (![0] : Fin 1 → Fin (⟨2, ![1600000, 1]⟩ : Shape).rank))
    (hb2 : (⟨0, ![]⟩ : Shape).BroadcastsInDim ⟨2, ![100000, 128]⟩ (![] : Fin 0 → Fin (⟨2, ![100000, 128]⟩ : Shape).rank))
    (X : (⟨⟨2, ![100000, 128]⟩, .f32⟩ : BufTy).Contents (Elt Ideal))
    (src dst : (⟨⟨1, ![1600000]⟩, .i32⟩ : BufTy).Contents (Elt Ideal)) :
    (⟨⟨2, ![100000, 128]⟩, .f32⟩ : BufTy).Contents (Elt Ideal) :=
  Host.scatterAdd sc
    (broadcastInDim ⟨2, ![100000, 128]⟩ ![] hb2 (constant (F := Ideal) ⟨0, ![]⟩ .f32 0x00000000#32))
    (broadcastInDim ⟨2, ![1600000, 1]⟩ ![0] hb1 dst)
    (Host.gather g X (broadcastInDim ⟨2, ![1600000, 1]⟩ ![0] hb1
      (select (cmpi .slt src (broadcastInDim ⟨1, ![1600000]⟩ ![] hb0 (constantI ⟨0, ![]⟩ 32 0#32)))
        (addi src (broadcastInDim ⟨1, ![1600000]⟩ ![] hb0 (constantI ⟨0, ![]⟩ 32 100000#32))) src)))

end Cert.Sage

end
-- ==== Proof.Pay0.lean ====
/-
  What one grid point of the first layer stores, read entry by entry over the extended reals.

  The body loads a 5000-row tile of the aggregated features and of the node features, both weight matrices and the
  bias row, multiplies tile by matrix twice into zero accumulators, adds the two products and the bias row, and clamps
  at zero.  A change of float format is the identity on the extended reals, a product into a zero accumulator is the
  plain sum over the contracted coordinate, and the bias row spread down the tile reads its one row.  So entry (p, q) of
  what is stored is the layer's pre-activation of row p at channel q, clamped at zero.
-/
import proofs.«106490_j32504312496300_1_alg».proof.Proof.Gen.KernelIdeal.Skeleton
import proofs.«106490_j32504312496300_1_alg».proof.Proof.Spec
import Idealize.ShloMosaic.Lib.ValueLayout
import Idealize.ShloMosaic.Lib.Pipeline.Value
import Idealize.ShloMosaic.PureOps.Ideal.Laws

noncomputable section

namespace Cert.KernelIdeal.Pay0

open Cert.KernelIdeal Cert.KernelIdeal.Gen Idealize.ShloMosaic Idealize.ShloMosaic.ValueIdx Cert.Sage

/-! ## The tile-by-matrix product's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a matrix into the zero accumulator, at (p, q): row p of the tile against column q of the matrix. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- Entry (p, q) of what the first layer's body stores: the pre-activation of row p at channel q from the loaded
    tiles, matrices and bias row, clamped at zero. -/
theorem pay_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (pre (rowOf x0 p) (rowOf x1 p) (matOf x2) (matOf x3) (rowOf x4 (0 : Fin 1)) q) (Ideal.ofBits .f32 0x00000000#32) := by
  unfold k0_pay1
  simp only [maximumf_apply, addf_apply, matmul_at, truncf_apply, shapeCast_self, broadcastTo_1b_ab_apply, broadcast_apply]
  simp only [pre, rowOf, matOf, Ideal.ofBits_def]

end Cert.KernelIdeal.Pay0

end
-- ==== Proof.Blocks0.lean ====
/-
  From the first layer's blocks to its whole output array, at any contents `V` the region is entered with.

  The grid has twenty points; point t reads rows 5000·t … 5000·t + 4999 of the aggregated features and of the node
  features, the whole of both weight matrices and of the bias row, and writes the same rows of the output.  So what point
  t writes back is block t of ONE whole-array function, the first layer of the arrays as the region finds them, and the
  twenty blocks cover the output: after the region the output array is that function.
-/
import proofs.«106490_j32504312496300_1_alg».proof.Proof.Gen.KernelIdeal.Frame
import proofs.«106490_j32504312496300_1_alg».proof.Proof.Pay0
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the twenty points: the two tiled inputs and the output sit at block row t,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry y of the aggregate's tile at point t is the aggregate at row 5000·t + y₀, column y₁. -/
theorem agg_tile (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v9 : S100000x128.Idx → EReal) i := by
  obtain ⟨e0, e1, -⟩ := idx_facts t
  unfold iblk0
  rw [View.read_apply]
  show V c main_v9 _ = V c main_v9 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- Entry y of the node features' tile at point t is the features at row 5000·t + y₀, column y₁. -/
theorem self_tile (c : Dev nD) (t : Fin cfg0.N) (y : S5000x128.Idx) (i : S100000x128.Idx)
    (h0 : (i 0).val = 5000 * t.val + (y 0).val) (h1 : (i 1).val = (y 1).val) :
    (iblk0 V c 1 t : Vec Ideal S5000x128 .f32) y = (V c main_arg0 : S100000x128.Idx → EReal) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (y 0).val = (i 0).val; rw [e0, h0]; omega
  | ⟨1, _⟩ => show win0_1.index t 1 * 128 + 1 * (y 1).val = (i 1).val; rw [e1, h1]; omega

/-- Every point reads the whole neighbour weight matrix. -/
theorem wn_whole (c : Dev nD) (t : Fin cfg0.N) :
    (iblk0 V c 2 t : Vec Ideal S128x128 .f32) = (V c main_arg3 : S128x128.Idx → EReal) := by
  obtain ⟨-, -, -, -, e0, e1, -⟩ := idx_facts t
  funext y
  unfold iblk0
  rw [View.read_apply]
  show V c main_arg3 _ = V c main_arg3 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Every point reads the whole self weight matrix. -/
theorem ws_whole (c : Dev nD) (t : Fin cfg0.N) :
    (iblk0 V c 3 t : Vec Ideal S128x128 .f32) = (V c main_arg4 : S128x128.Idx → EReal) := by
  obtain ⟨-, -, -, -, -, -, e0, e1, -⟩ := idx_facts t
  funext y
  unfold iblk0
  rw [View.read_apply]
  show V c main_arg4 _ = V c main_arg4 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Every point reads the whole bias row. -/
theorem bias_whole (c : Dev nD) (t : Fin cfg0.N) :
    (iblk0 V c 4 t : Vec Ideal S1x128 .f32) = (V c main_v10 : S1x128.Idx → EReal) := by
  obtain ⟨-, -, -, -, -, -, -, -, e0, e1, -⟩ := idx_facts t
  funext y
  unfold iblk0
  rw [View.read_apply]
  show V c main_v10 _ = V c main_v10 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The body's stored entry against the whole-array function, over plain variables: if the two tiles' row y₀ are
    rows i₀ of the aggregate and of the features, the three small blocks are the whole weight matrices and bias row, and
    the channels agree, then entry y of what the body stores is the first layer at i. -/
theorem pay_entry (A X : S100000x128.Idx → EReal) (Wn Ws : S128x128.Idx → EReal) (B : S1x128.Idx → EReal)
    (x0 x1 : Vec Ideal S5000x128 .f32) (x2 x3 : Vec Ideal S128x128 .f32) (x4 : Vec Ideal S1x128 .f32)
    (y : S5000x128.Idx) (i : S100000x128.Idx)
    (hA : ∀ k : Fin 128, x0 (ix2 (c0 y) k) = A (ix2 (c0 i) k))
    (hX : ∀ k : Fin 128, x1 (ix2 (c0 y) k) = X (ix2 (c0 i) k))
    (h2 : x2 = Wn) (h3 : x3 = Ws) (h4 : x4 = B) (hq : c1 i = c1 y) :
    k0_pay1 (F := Ideal) x0 x1 x2 x3 x4 y = layer1 (R := 100000) A X Wn Ws (rowOf B (0 : Fin 1)) i := by
  obtain ⟨p, q, rfl⟩ : ∃ (p : Fin 5000) (q : Fin 128), y = ix2 p q := ⟨c0 y, c1 y, eq_ix2_c y⟩
  obtain ⟨r, s, rfl⟩ : ∃ (r : Fin 100000) (s : Fin 128), i = ix2 r s := ⟨c0 i, c1 i, eq_ix2_c i⟩
  have hs : s = q := hq
  subst hs h2 h3 h4
  rw [Pay0.pay_at, layer1_ix2]
  have eA : rowOf x0 p = rowOf A r := funext fun k => hA k
  have eX : rowOf x1 p = rowOf X r := funext fun k => hX k
  rw [eA, eX]

/-- The first layer of the arrays as the region finds them. -/
abbrev result (c : Dev nD) : S100000x128.Idx → EReal :=
  layer1 (R := 100000) (V c main_v9) (V c main_arg0) (V c main_arg3) (V c main_arg4) (rowOf (V c main_v10) (0 : Fin 1))

/-- What point t writes back is block t of that one whole-array function. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  rw [View.read_apply]
  obtain ⟨-, -, -, -, -, -, -, -, -, -, e0, e1⟩ := idx_facts t
  show k0_pay1 (F := Ideal) (iblk0 V c 0 t) (iblk0 V c 1 t) (iblk0 V c 2 t) (iblk0 V c 3 t) (iblk0 V c 4 t) y
    = result V c (((cfg0.win 5).blk t).view.emb y)
  refine pay_entry (V c main_v9) (V c main_arg0) (V c main_arg3) (V c main_arg4) (V c main_v10)
    (iblk0 V c 0 t) (iblk0 V c 1 t) (iblk0 V c 2 t) (iblk0 V c 3 t) (iblk0 V c 4 t) y (((cfg0.win 5).blk t).view.emb y)
    (fun k => agg_tile V c t _ _ ?_ rfl) (fun k => self_tile V c t _ _ ?_ rfl)
    (wn_whole V c t) (ws_whole V c t) (bias_whole V c t) (Fin.ext ?_)
  · show win0_5.index t 0 * 5000 + 1 * (y 0).val = 5000 * t.val + (y 0).val; rw [e0]; omega
  · show win0_5.index t 0 * 5000 + 1 * (y 0).val = 5000 * t.val + (y 0).val; rw [e0]; omega
  · show win0_5.index t 1 * 128 + 1 * (y 1).val = (y 1).val; rw [e1]; omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v11).slice (win0_5.rect t)).set ↔ _
  rw [View.set_slice_whole, Rect.mem_set_unit]
  exact Iff.rfl

/-- Every row of the output is in some point's block: row i₀ in the block of point i₀ / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ 0 * 5000 ≤ (i 0).val ∧ (i 0).val < win0_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ 1 * 128 ≤ (i 1).val ∧ (i 1).val < win0_5.index ⟨(i 0).val / 5000, ht⟩ 1 * 128 + 128
    rw [e1]; omega

/-- After the region the output array is the first layer of the arrays as the region found them. -/
theorem final (c : Dev nD) : (dat0 V c).arrAt 5 cfg0.N = result V c :=
  (dat0 V c).arrAt_eq_of_cover 5 (result V c) (fun t _ => flushed_eq V c t) cover

end Cert.KernelIdeal.Blocks0

end
-- ==== Proof.LibKeepdimsColumn.lean ====
/-
  Two layout operations read at an index given by coordinates, for the shapes a row reduction with kept
  dimensions produces: a vector of `a` row results cast to one column `[a, 1]`, and that column broadcast
  across `b` columns.  Entry (p, ·) of the column is entry p of the vector, and entry (p, c) of the
  broadcast is entry (p, 0) of the column, whatever the extents.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
    the row-major position of (i, u) in `[a, 1]` is i · 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay1.lean ====
/-
  What one grid point of the second layer stores, read entry by entry over the extended reals.

  The body forms the tile's eight pre-activations per row as the first layer does, takes each row's maximum by a lane
  reduction folded from the format's most negative value, subtracts it, exponentiates, sums each row by a second lane
  reduction, takes the logarithm and subtracts that too.  Each lane reduction keeps its axis as a unit column that is
  then spread back across the eight channels, so entry (p, q) of what is stored is the log-softmax of row p's
  pre-activations at channel q.
-/
import proofs.«106490_j32504312496300_1_alg».proof.Proof.Gen.KernelIdeal.Skeleton
import proofs.«106490_j32504312496300_1_alg».proof.Proof.Spec
import proofs.«106490_j32504312496300_1_alg».proof.Proof.LibKeepdimsColumn
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen Idealize.ShloMosaic Idealize.ShloMosaic.ValueIdx Cert.Sage

/-! ## The tile-by-matrix product's operand indices, axis by axis -/

theorem lhs_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem lhs_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
theorem rhs_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
theorem rhs_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- A tile times an eight-column matrix into the zero accumulator, at (p, q): row p against column q. -/
theorem matmul_at (l : FVec Ideal S5000x128 .bf16) (r : FVec Ideal S128x8 .bf16) (p : Fin 5000) (q : Fin 8) :
    matmul dot_S5000x128_S128x8_S5000x8_1_0_0_1_n_n none l r (constant S5000x8 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x8_S5000x8_1_0_0_1_n_n 128 rfl rfl).symm]
  refine Finset.sum_congr rfl fun k _ => ?_
  have hk := ValueIdx.contrEquiv1_symm_val dot_S5000x128_S128x8_S5000x8_1_0_0_1_n_n 128 rfl rfl k
  have el : dot_S5000x128_S128x8_S5000x8_1_0_0_1_n_n.lhsIdx (ix2 p q) ((ValueIdx.contrEquiv1 dot_S5000x128_S128x8_S5000x8_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x8_S5000x8_1_0_0_1_n_n.rhsIdx (ix2 p q) ((ValueIdx.contrEquiv1 dot_S5000x128_S128x8_S5000x8_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The two lane reductions over the eight channels, at a row -/

/-- Inserting channel k into a row index gives the entry (p, k). -/
theorem lift_row (p : Fin 5000) (k : Fin 8) : reduces_S5000x8_S5000.lift (ix1 p) k = ix2 p k :=
  funext fun a => Fin.ext (by
    match a with
    | ⟨0, _⟩ => rfl
    | ⟨1, _⟩ => rfl)

/-- The row maximum as the lane reduction prints it: the fold of max from the accumulator word over row p's entries. -/
theorem rowmax_at (v : FVec Ideal S5000x8 .f32) (hφ : FKind.Formats .f32) (hacc : (0xFF800000#32 : BitVec 32) = FKind.maximumf.neutral .f32 hφ) (p : Fin 5000) :
    multiReduction .maximumf [1] S5000 v 0xFF800000#32 reduces_S5000x8_S5000 hφ hacc (ix1 p)
      = rowMax (rowOf v p) := by
  refine (Ideal.multiReduction_maximumf_single v 0xFF800000#32 reduces_S5000x8_S5000 hφ hacc (ix1 p)).trans ?_
  unfold rowMax rowOf
  refine congrArg (Finset.fold max _ · Finset.univ) (funext fun k => ?_)
  exact congrArg v (lift_row p k)

/-- The row sum as the lane reduction prints it: the sum of row p's entries. -/
theorem rowsum_at (v : FVec Ideal S5000x8 .f32) (hφ : FKind.Formats .f32) (hacc : (0x00000000#32 : BitVec 32) = FKind.add.neutral .f32 hφ) (p : Fin 5000) :
    multiReduction .add [1] S5000 v 0x00000000#32 reduces_S5000x8_S5000 hφ hacc (ix1 p)
      = ∑ k : Fin 8, v (ix2 p k) := by
  refine (Ideal.multiReduction_add_single v 0x00000000#32 reduces_S5000x8_S5000 hφ hacc (ix1 p)).trans ?_
  refine Finset.sum_congr rfl fun k _ => ?_
  exact congrArg v (lift_row p k)

/-! ## The body's stored value at an entry -/

theorem exp_at (v : FVec Ideal S5000x8 .f32) (i : S5000x8.Idx) : exp v i = Ideal.exp (v i) := rfl
theorem log_at (v : FVec Ideal S5000x1 .f32) (i : S5000x1.Idx) : log v i = Ideal.log (v i) := rfl

/-- The tile's pre-activations before the softmax, as one array: both products and the bias row. -/
def logits (x0 x1 : Vec Ideal S5000x128 .f32) (x2 x3 : Vec Ideal S128x8 .f32) (x4 : Vec Ideal S1x8 .f32) : FVec Ideal S5000x8 .f32 :=
  addf (addf (matmul dot_S5000x128_S128x8_S5000x8_1_0_0_1_n_n none (truncf .bf16 (shapeCast S5000x128 x0 shapeCasts_S5000x128_S5000x128) bitsLt_bf16_f32) (truncf .bf16 x2 bitsLt_bf16_f32) (constant S5000x8 .f32 0x00000000#32))
    (matmul dot_S5000x128_S128x8_S5000x8_1_0_0_1_n_n none (truncf .bf16 (shapeCast S5000x128 x1 shapeCasts_S5000x128_S5000x128) bitsLt_bf16_f32) (truncf .bf16 x3 bitsLt_bf16_f32) (constant S5000x8 .f32 0x00000000#32)))
    (broadcastTo S5000x8 (shapeCast S1x8 x4 shapeCasts_S1x8_S1x8) broadcasts_S1x8_S5000x8)

/-- Row p of the tile's pre-activations is the layer's pre-activation of row p, channel by channel. -/
theorem logits_row (x0 x1 : Vec Ideal S5000x128 .f32) (x2 x3 : Vec Ideal S128x8 .f32) (x4 : Vec Ideal S1x8 .f32) (p : Fin 5000) :
    rowOf (logits x0 x1 x2 x3 x4) p = pre (rowOf x0 p) (rowOf x1 p) (matOf x2) (matOf x3) (rowOf x4 (0 : Fin 1)) := by
  funext k
  unfold logits
  simp only [rowOf, addf_apply, matmul_at, truncf_apply, shapeCast_self, broadcastTo_1b_ab_apply, pre, matOf]

/-- What the body does to the tile's pre-activations `Z`: each row's maximum by a lane reduction, kept as a column and
    spread back; the difference; its exponentials summed per row, the logarithm of that kept as a column and spread back;
    the second difference. -/
def tail (Z : FVec Ideal S5000x8 .f32) : FVec Ideal S5000x8 .f32 :=
  subf
    (subf Z (broadcastTo S5000x8 (shapeCast S5000x1 (multiReduction .maximumf [1] S5000 Z 0xFF800000#32 reduces_S5000x8_S5000 (.inl rfl) rfl) shapeCasts_S5000_S5000x1) broadcasts_S5000x1_S5000x8))
    (broadcastTo S5000x8 (log (shapeCast S5000x1
      (multiReduction .add [1] S5000
        (exp (subf Z (broadcastTo S5000x8 (shapeCast S5000x1 (multiReduction .maximumf [1] S5000 Z 0xFF800000#32 reduces_S5000x8_S5000 (.inl rfl) rfl) shapeCasts_S5000_S5000x1) broadcasts_S5000x1_S5000x8)))
        0x00000000#32 reduces_S5000x8_S5000 (.inl rfl) rfl) shapeCasts_S5000_S5000x1)) broadcasts_S5000x1_S5000x8)

/-- The body's stored value is that tail of the tile's pre-activations: the printed operations in their order. -/
theorem pay_eq (x0 x1 : Vec Ideal S5000x128 .f32) (x2 x3 : Vec Ideal S128x8 .f32) (x4 : Vec Ideal S1x8 .f32) :
    k1_pay1 (F := Ideal) x0 x1 x2 x3 x4 = tail (logits x0 x1 x2 x3 x4) := rfl

/-- The tail at entry (p, q) is the log-softmax of row p of `Z` at channel q. -/
theorem tail_at (Z : FVec Ideal S5000x8 .f32) (p : Fin 5000) (q : Fin 8) : tail Z (ix2 p q) = lsm (rowOf Z p) q := by
  unfold tail
  simp only [subf_apply, broadcastTo_a1_ab_apply, log_at, exp_at, shapeCast_a_a1_apply,
    rowsum_at _ (.inl rfl) rfl p, rowmax_at Z (.inl rfl) rfl p]
  rfl

/-- Entry (p, q) of what the second layer's body stores: the log-softmax of row p's pre-activations at channel q. -/
theorem pay_at (x0 x1 : Vec Ideal S5000x128 .f32) (x2 x3 : Vec Ideal S128x8 .f32) (x4 : Vec Ideal S1x8 .f32)
    (p : Fin 5000) (q : Fin 8) :
    k1_pay1 (F := Ideal) x0 x1 x2 x3 x4 (ix2 p q)
      = lsm (pre (rowOf x0 p) (rowOf x1 p) (matOf x2) (matOf x3) (rowOf x4 (0 : Fin 1))) q :=
  (congrFun (pay_eq x0 x1 x2 x3 x4) (ix2 p q)).trans ((tail_at _ p q).trans (by rw [logits_row]))

end Cert.KernelIdeal.Pay1

end
-- ==== Proof.Blocks1.lean ====
/-
  From the second layer's blocks to its whole output array, at any contents `V` the region is entered with.

  The grid has twenty points; point t reads rows 5000·t … 5000·t + 4999 of the aggregated hidden features and of the
  hidden features themselves (128 columns each), the whole of both 128 × 8 weight matrices and of the eight-entry bias
  row, and writes the same rows of the eight-column output.  So what point t writes back is block t of ONE whole-array
  function, the second layer of the arrays as the region finds them, and the twenty blocks cover the output: after
  the region the output array is that function.
-/
import proofs.«106490_j32504312496300_1_alg».proof.Proof.Gen.KernelIdeal.Frame
import proofs.«106490_j32504312496300_1_alg».proof.Proof.Pay1
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the twenty points: the two tiled inputs and the output sit at block row t,
    the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry y of the aggregate's tile at point t is the aggregated hidden features at row 5000·t + y₀, column y₁. -/
theorem agg_tile (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v21 : S100000x128.Idx → EReal) i := by
  obtain ⟨e0, e1, -⟩ := idx_facts t
  unfold iblk1
  rw [View.read_apply]
  show V c main_v21 _ = V c main_v21 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Entry y of the hidden features' tile at point t is the hidden features at row 5000·t + y₀, column y₁. -/
theorem self_tile (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v11 : S100000x128.Idx → EReal) i := by
  obtain ⟨-, -, e0, e1, -⟩ := idx_facts t
  unfold iblk1
  rw [View.read_apply]
  show V c main_v11 _ = V c main_v11 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- Every point reads the whole neighbour weight matrix, 128 rows by eight channels. -/
theorem wn_whole (c : Dev nD) (t : Fin cfg1.N) :
    (iblk1 V c 2 t : Vec Ideal S128x8 .f32) = (V c main_arg6 : S128x8.Idx → EReal) := by
  obtain ⟨-, -, -, -, e0, e1, -⟩ := idx_facts t
  funext y
  unfold iblk1
  rw [View.read_apply]
  show V c main_arg6 _ = V c main_arg6 _
  congr 1
  funext a
  apply Fin.ext
  match a with
  | ⟨0, _⟩ => show win1_2.index t 0 * 128 + 1 * (y 0).val = (y 0).val; rw [e0]; omega
  | ⟨1, _⟩ => show win1_2.index t 1 * 8 + 1 * (y 1).val = (y 1).val; rw [e1]; omega

/-- Every point reads the whole self weight matrix, 128 rows by eight channels. -/
theorem ws_whole (c : Dev nD) (t : Fin cfg1.N) :
    (iblk1 V c 3 t : Vec Ideal S128x8 .f32) = (V c main_arg7 : S128x8.Idx → EReal) := by
  obtain ⟨-, -, -, -, -, -, e0, e1, -⟩ := idx_facts t
  funext y
  unfold iblk1
  rw [View.read_apply]
  show V c main_arg7 _ = V c main_arg7 _
  congr 1
  funext a
  apply Fin.ext
  match a with
  | ⟨0, _⟩ => show win1_3.index t 0 * 128 + 1 * (y 0).val = (y 0).val; rw [e0]; omega
  | ⟨1, _⟩ => show win1_3.index t 1 * 8 + 1 * (y 1).val = (y 1).val; rw [e1]; omega

/-- Every point reads the whole eight-entry bias row. -/
theorem bias_whole (c : Dev nD) (t : Fin cfg1.N) :
    (iblk1 V c 4 t : Vec Ideal S1x8 .f32) = (V c main_v22 : S1x8.Idx → EReal) := by
  obtain ⟨-, -, -, -, -, -, -, -, e0, e1, -⟩ := idx_facts t
  funext y
  unfold iblk1
  rw [View.read_apply]
  show V c main_v22 _ = V c main_v22 _
  congr 1
  funext a
  apply Fin.ext
  match a with
  | ⟨0, _⟩ => show win1_4.index t 0 * 1 + 1 * (y 0).val = (y 0).val; rw [e0]; omega
  | ⟨1, _⟩ => show win1_4.index t 1 * 8 + 1 * (y 1).val = (y 1).val; rw [e1]; omega

/-- The body's stored entry against the whole-array function, over plain variables: if the two tiles' row y₀ are
    rows i₀ of the aggregate and of the hidden features, the three small blocks are the whole weight matrices and bias
    row, and the channels agree, then entry y of what the body stores is the second layer at i. -/
theorem pay_entry (A H : S100000x128.Idx → EReal) (Wn Ws : S128x8.Idx → EReal) (B : S1x8.Idx → EReal)
    (x0 x1 : Vec Ideal S5000x128 .f32) (x2 x3 : Vec Ideal S128x8 .f32) (x4 : Vec Ideal S1x8 .f32)
    (y : S5000x8.Idx) (i : S100000x8.Idx)
    (hA : ∀ k : Fin 128, x0 (ix2 (c0 y) k) = A (ix2 (c0 i) k))
    (hH : ∀ k : Fin 128, x1 (ix2 (c0 y) k) = H (ix2 (c0 i) k))
    (h2 : x2 = Wn) (h3 : x3 = Ws) (h4 : x4 = B) (hq : c1 i = c1 y) :
    k1_pay1 (F := Ideal) x0 x1 x2 x3 x4 y = layer2 (R := 100000) A H Wn Ws (rowOf B (0 : Fin 1)) i := by
  obtain ⟨p, q, rfl⟩ : ∃ (p : Fin 5000) (q : Fin 8), y = ix2 p q := ⟨c0 y, c1 y, eq_ix2_c y⟩
  obtain ⟨r, s, rfl⟩ : ∃ (r : Fin 100000) (s : Fin 8), i = ix2 r s := ⟨c0 i, c1 i, eq_ix2_c i⟩
  have hs : s = q := hq
  subst hs h2 h3 h4
  rw [Pay1.pay_at, layer2_ix2]
  have eA : rowOf x0 p = rowOf A r := funext fun k => hA k
  have eH : rowOf x1 p = rowOf H r := funext fun k => hH k
  rw [eA, eH]

/-- The second layer of the arrays as the region finds them. -/
abbrev result (c : Dev nD) : S100000x8.Idx → EReal :=
  layer2 (R := 100000) (V c main_v21) (V c main_v11) (V c main_arg6) (V c main_arg7) (rowOf (V c main_v22) (0 : Fin 1))

/-- What point t writes back is block t of that one whole-array function. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x8) hz, View.ld_unit_zero (S := S1x8) hz]
  funext y
  rw [View.read_apply]
  obtain ⟨-, -, -, -, -, -, -, -, -, -, e0, e1⟩ := idx_facts t
  show k1_pay1 (F := Ideal) (iblk1 V c 0 t) (iblk1 V c 1 t) (iblk1 V c 2 t) (iblk1 V c 3 t) (iblk1 V c 4 t) y
    = result V c (((cfg1.win 5).blk t).view.emb y)
  refine pay_entry (V c main_v21) (V c main_v11) (V c main_arg6) (V c main_arg7) (V c main_v22)
    (iblk1 V c 0 t) (iblk1 V c 1 t) (iblk1 V c 2 t) (iblk1 V c 3 t) (iblk1 V c 4 t) y (((cfg1.win 5).blk t).view.emb y)
    (fun k => agg_tile V c t _ _ ?_ rfl) (fun k => self_tile V c t _ _ ?_ rfl)
    (wn_whole V c t) (ws_whole V c t) (bias_whole V c t) (Fin.ext ?_)
  · show win1_5.index t 0 * 5000 + 1 * (y 0).val = 5000 * t.val + (y 0).val; rw [e0]; omega
  · show win1_5.index t 0 * 5000 + 1 * (y 0).val = 5000 * t.val + (y 0).val; rw [e0]; omega
  · show win1_5.index t 1 * 8 + 1 * (y 1).val = (y 1).val; rw [e1]; omega

/-- An index of the output array is in point t's block iff each coordinate is in the block's range on its axis. -/
theorem mem_blk (t : Fin cfg1.N) (i : S100000x8.Idx) :
    i ∈ ((cfg1.win 5).blk t).view.set ↔ ∀ a : Fin 2, win1_5.index t a * S5000x8.size a ≤ (i a).val ∧ (i a).val < win1_5.index t a * S5000x8.size a + S5000x8.size a := by
  show i ∈ ((View.whole main_v23).slice (win1_5.rect t)).set ↔ _
  rw [View.set_slice_whole, Rect.mem_set_unit]
  exact Iff.rfl

/-- Every row of the output is in some point's block: row i₀ in the block of point i₀ / 5000. -/
theorem cover (i : S100000x8.Idx) :
    ∃ t : Fin cfg1.N, (cfg1.win 5).flush t = true ∧ i ∈ ((cfg1.win 5).blk t).view.set := by
  have hi0 : (i 0).val < 100000 := (i 0).isLt
  have hi1 : (i 1).val < 8 := (i 1).isLt
  have hN : cfg1.N = 20 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 8 ≤ (i 1).val ∧ (i 1).val < win1_5.index ⟨(i 0).val / 5000, ht⟩ 1 * 8 + 8
    rw [e1]; omega

/-- After the region the output array is the second layer of the arrays as the region found them. -/
theorem final (c : Dev nD) : (dat1 V c).arrAt 5 cfg1.N = result V c :=
  (dat1 V c).arrAt_eq_of_cover 5 (result V c) (fun t _ => flushed_eq V c t) cover

end Cert.KernelIdeal.Blocks1

end
-- ==== Proof.KValue.lean ====
/-
  The kernel program's result as one function of its arguments, over the extended reals.

  @main is two stretches of host operations, each followed by a region.  The first stretch aggregates the node
  features over the edge list and lays the first bias out as a row; the first region then leaves the first layer of
  those arrays in its output.  The second stretch aggregates that output over the same edge list and lays the second
  bias out as a row; the second region leaves the second layer in the result buffer.  Reading each stretch at the
  buffers the next region takes, and each region by its final-array lemma, the result buffer ends at
      layer2 (agg H) H Wn₂ Ws₂ b₂   with   H = layer1 (agg X) X Wn₁ Ws₁ b₁,
  `agg` the shared sum aggregation over the program's own edge arrays.
-/
import proofs.«106490_j32504312496300_1_alg».proof.Proof.KRun
import proofs.«106490_j32504312496300_1_alg».proof.Proof.Blocks0
import proofs.«106490_j32504312496300_1_alg».proof.Proof.Blocks1
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg)

/-- The shared aggregation at the kernel program's own records and facts. -/
abbrev aggK := agg gather_S100000x128_S1600000x1_S1600000x128_1_0_n_n_0_1_1128 scatter_S100000x128_S1600000x1_S1600000x128_1_0_0_1 bcast_S_S1600000 bcast_S1600000_S1600000x1_0 bcast_S_S100000x128

/-- The hidden features: the first layer of the aggregated and the plain node features. -/
abbrev hidden (c : Dev nD) : S100000x128.Idx → EReal :=
  layer1 (R := 100000) (aggK (m ((c : Thread nD τ).loc main_arg0)) (m ((c : Thread nD τ).loc main_arg1)) (m ((c : Thread nD τ).loc main_arg2))) (m ((c : Thread nD τ).loc main_arg0))
    (m ((c : Thread nD τ).loc main_arg3)) (m ((c : Thread nD τ).loc main_arg4)) (vecOf (m ((c : Thread nD τ).loc main_arg5)))

/-- The program's result: the second layer of the aggregated and the plain hidden features. -/
abbrev output (c : Dev nD) : S100000x8.Idx → EReal :=
  layer2 (R := 100000) (aggK (hidden m c) (m ((c : Thread nD τ).loc main_arg1)) (m ((c : Thread nD τ).loc main_arg2))) (hidden m c)
    (m ((c : Thread nD τ).loc main_arg6)) (m ((c : Thread nD τ).loc main_arg7)) (vecOf (m ((c : Thread nD τ).loc main_arg8)))

/-! ## The first host stretch: what the first region is entered with -/

theorem V1_agg (c : Dev nD) :
    V1 m ρ c main_v9 = aggK (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem V1_arg0 (c : Dev nD) : V1 m ρ c main_arg0 = (m ((c : Thread nD τ).loc main_arg0)) := by
  show StableHlo.after hostOps0 (W0 m ρ c) (Proc.devRef .tc main_arg0) = _
  after_results

theorem V1_arg1 (c : Dev nD) : V1 m ρ c main_arg1 = (m ((c : Thread nD τ).loc main_arg1)) := by
  show StableHlo.after hostOps0 (W0 m ρ c) (Proc.devRef .tc main_arg1) = _
  after_results

theorem V1_arg2 (c : Dev nD) : V1 m ρ c main_arg2 = (m ((c : Thread nD τ).loc main_arg2)) := by
  show StableHlo.after hostOps0 (W0 m ρ c) (Proc.devRef .tc main_arg2) = _
  after_results

theorem V1_arg3 (c : Dev nD) : V1 m ρ c main_arg3 = (m ((c : Thread nD τ).loc main_arg3)) := by
  show StableHlo.after hostOps0 (W0 m ρ c) (Proc.devRef .tc main_arg3) = _
  after_results

theorem V1_arg4 (c : Dev nD) : V1 m ρ c main_arg4 = (m ((c : Thread nD τ).loc main_arg4)) := by
  show StableHlo.after hostOps0 (W0 m ρ c) (Proc.devRef .tc main_arg4) = _
  after_results

theorem V1_arg6 (c : Dev nD) : V1 m ρ c main_arg6 = (m ((c : Thread nD τ).loc main_arg6)) := by
  show StableHlo.after hostOps0 (W0 m ρ c) (Proc.devRef .tc main_arg6) = _
  after_results

theorem V1_arg7 (c : Dev nD) : V1 m ρ c main_arg7 = (m ((c : Thread nD τ).loc main_arg7)) := by
  show StableHlo.after hostOps0 (W0 m ρ c) (Proc.devRef .tc main_arg7) = _
  after_results

theorem V1_arg8 (c : Dev nD) : V1 m ρ c main_arg8 = (m ((c : Thread nD τ).loc main_arg8)) := by
  show StableHlo.after hostOps0 (W0 m ρ c) (Proc.devRef .tc main_arg8) = _
  after_results

/-- The first bias laid out as a one-row array reads, along its row, as the bias itself. -/
theorem V1_bias (c : Dev nD) : rowOf (V1 m ρ c main_v10 : S1x128.Idx → EReal) (0 : Fin 1) = vecOf (m ((c : Thread nD τ).loc main_arg5)) := by
  have e : (V1 m ρ c main_v10 : S1x128.Idx → EReal) = shapeCast S1x128 (m ((c : Thread nD τ).loc main_arg5)) shapeCasts_S128_S1x128 := by
    show StableHlo.after hostOps0 (W0 m ρ c) (Proc.devRef .tc main_v10) = _
    after_results
    rfl
  rw [e]
  funext j
  exact shapeCast_a_1a_apply _ _ (0 : Fin 1) j

/-! ## After the first region -/

/-- The first region's output array ends at the hidden features. -/
theorem V2_hidden (c : Dev nD) : V2 m ρ c main_v11 = hidden m c := by
  refine (W2_arr m ρ c 5).trans ((Blocks0.final (V1 m ρ) c).trans ?_)
  show layer1 (R := 100000) (V1 m ρ c main_v9) (V1 m ρ c main_arg0) (V1 m ρ c main_arg3) (V1 m ρ c main_arg4)
    (rowOf (V1 m ρ c main_v10 : S1x128.Idx → EReal) (0 : Fin 1)) = _
  rw [V1_agg, V1_arg0, V1_arg3, V1_arg4, V1_bias]

/-- A buffer that is none of the first region's arrays is after the region what it was before it. -/
theorem V2_of_ne (c : Dev nD) (b : Ref sig .tc) (hb : ∀ w, Pipeline.arrRef spec0 w ≠ b) : V2 m ρ c b = V1 m ρ c b :=
  W2_of_ne m ρ c b hb

/-! ## The second host stretch: what the second region is entered with -/

theorem V3_agg (c : Dev nD) :
    V3 m ρ c main_v21 = aggK (V2 m ρ c main_v11) (V2 m ρ c main_arg1) (V2 m ρ c main_arg2) := by
  show StableHlo.after hostOps1 (W2 m ρ c) (Proc.devRef .tc main_v21) = _
  after_results
  rfl

theorem V3_v11 (c : Dev nD) : V3 m ρ c main_v11 = V2 m ρ c main_v11 := by
  show StableHlo.after hostOps1 (W2 m ρ c) (Proc.devRef .tc main_v11) = _
  after_results

theorem V3_arg6 (c : Dev nD) : V3 m ρ c main_arg6 = V2 m ρ c main_arg6 := by
  show StableHlo.after hostOps1 (W2 m ρ c) (Proc.devRef .tc main_arg6) = _
  after_results

theorem V3_arg7 (c : Dev nD) : V3 m ρ c main_arg7 = V2 m ρ c main_arg7 := by
  show StableHlo.after hostOps1 (W2 m ρ c) (Proc.devRef .tc main_arg7) = _
  after_results

/-- The second bias laid out as a one-row array reads, along its row, as the bias itself. -/
theorem V3_bias (c : Dev nD) : rowOf (V3 m ρ c main_v22 : S1x8.Idx → EReal) (0 : Fin 1) = vecOf (m ((c : Thread nD τ).loc main_arg8)) := by
  have e : (V3 m ρ c main_v22 : S1x8.Idx → EReal) = shapeCast S1x8 (V2 m ρ c main_arg8) shapeCasts_S8_S1x8 := by
    show StableHlo.after hostOps1 (W2 m ρ c) (Proc.devRef .tc main_v22) = _
    after_results
    rfl
  rw [e, V2_of_ne m ρ c main_arg8 (by decide), V1_arg8]
  funext j
  exact shapeCast_a_1a_apply _ _ (0 : Fin 1) j

/-! ## The result -/

/-- After the run the result buffer holds the program's output function of the arguments. -/
theorem result_eq (c : Dev nD) : W4 m ρ c (Proc.devRef .tc main_v23) = output m c := by
  refine (W4_arr m ρ c 5).trans ((Blocks1.final (V3 m ρ) c).trans ?_)
  show layer2 (R := 100000) (V3 m ρ c main_v21) (V3 m ρ c main_v11) (V3 m ρ c main_arg6) (V3 m ρ c main_arg7)
    (rowOf (V3 m ρ c main_v22 : S1x8.Idx → EReal) (0 : Fin 1)) = _
  rw [V3_agg, V3_v11, V3_arg6, V3_arg7, V3_bias, V2_hidden,
    V2_of_ne m ρ c main_arg1 (by decide), V2_of_ne m ρ c main_arg2 (by decide),
    V2_of_ne m ρ c main_arg6 (by decide), V2_of_ne m ρ c main_arg7 (by decide),
    V1_arg1, V1_arg2, V1_arg6, V1_arg7]

/-- The run, read: the result buffer at the output function, every argument as launched. -/
theorem run : θ_run defs (onTc (τ := τ) (main (F := Ideal))) ⟨m, fun _ => 0, ρ⟩ (fun r => ∀ c : Dev nD,
      r.2.mem ((c.tc : Thread nD τ).loc main_v23) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m ρ c), (h c).2⟩) (Cert.KernelIdeal.Named.run_named m ρ)

end Cert.KernelIdeal.KValue

end
-- ==== Proof.RefValue.lean ====
/-
  The reference program's result as one function of its arguments, over the extended reals.

  The reference is host operations only: it aggregates the node features over the edge list, forms the first layer
  (two products, the bias, the clamp at zero), aggregates that over the same edge list, forms the second layer's eight
  pre-activations per node and takes their row-wise log-softmax (the row maximum, taken once more against the starting
  value of its own fold, which changes nothing; the shifted entries; the logarithm of the sum of their exponentials, the
  sum started from zero).  Stage by stage, entry by entry, that is the same function the kernel program's result is.
-/
import proofs.«106490_j32504312496300_1_alg».proof.Defs
import proofs.«106490_j32504312496300_1_alg».proof.Proof.RefRun
import proofs.«106490_j32504312496300_1_alg».proof.Proof.RefRead
import proofs.«106490_j32504312496300_1_alg».proof.Proof.Spec

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Cert.Sage

/-- The shared aggregation at the reference program's own records and facts. -/
abbrev aggR := agg gather_S100000x128_S1600000x1_S1600000x128_1_0_n_n_0_1_1128 scatter_S100000x128_S1600000x1_S1600000x128_1_0_0_1 bcast_S_S1600000 bcast_S1600000_S1600000x1_0 bcast_S_S100000x128

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x8, .f32⟩ : BufTy).Contents (Elt Ideal)) (x8 : (⟨S8, .f32⟩ : BufTy).Contents (Elt Ideal))

/-! ## The two aggregations -/

theorem v9_eq : val_main_v9 (F := Ideal) x0 x1 x2 = aggR x0 x1 x2 := by
  unfold val_main_v9 val_main_v8 val_main_v7 val_main_v6 val_main_v5 val_main_v4 val_main_v3 val_main_v2 val_main_v1 val_main_v0 val_main_cst val_main_c_0 val_main_c
  rfl

theorem v26_eq : val_main_v26 (F := Ideal) x0 x1 x2 x3 x4 x5 = aggR (val_main_v16 (F := Ideal) x0 x1 x2 x3 x4 x5) x1 x2 := by
  unfold val_main_v26 val_main_v25 val_main_v24 val_main_v23 val_main_v22 val_main_v21 val_main_v20 val_main_v19 val_main_v18 val_main_v17 val_main_cst_3 val_main_c_2 val_main_c_1
  rfl

/-! ## The first layer -/

theorem l10 (r : Fin 100000) (q k : Fin 128) : lidx_main_v10 (ix2 r q) k = ix2 r k := funext fun a => match a with | ⟨0, _⟩ => rfl | ⟨1, _⟩ => rfl
theorem r10 (r : Fin 100000) (q k : Fin 128) : ridx_main_v10 (ix2 r q) k = ix2 k q := funext fun a => match a with | ⟨0, _⟩ => rfl | ⟨1, _⟩ => rfl
theorem l11 (r : Fin 100000) (q k : Fin 128) : lidx_main_v11 (ix2 r q) k = ix2 r k := funext fun a => match a with | ⟨0, _⟩ => rfl | ⟨1, _⟩ => rfl
theorem r11 (r : Fin 100000) (q k : Fin 128) : ridx_main_v11 (ix2 r q) k = ix2 k q := funext fun a => match a with | ⟨0, _⟩ => rfl | ⟨1, _⟩ => rfl
theorem ib1 (r : Fin 100000) (q : Fin 128) : idx_main_v13 (idx_main_v14 (ix2 r q)) = ix1 q := funext fun a => match a with | ⟨0, _⟩ => rfl

/-- The relu of the first convolution is the first layer of the aggregate and the features. -/
theorem v16_eq : val_main_v16 (F := Ideal) x0 x1 x2 x3 x4 x5 = layer1 (R := 100000) (val_main_v9 (F := Ideal) x0 x1 x2) x0 x3 x4 (vecOf x5) := by
  funext i
  obtain ⟨r, q, rfl⟩ : ∃ (r : Fin 100000) (q : Fin 128), i = ix2 r q := ⟨c0 i, c1 i, eq_ix2_c i⟩
  rw [layer1_ix2, val_main_v16_apply, val_main_v15_apply, val_main_v12_apply, val_main_v10_apply, val_main_v11_apply,
    val_main_v14_apply, val_main_v13_apply, val_main_call0_v0_apply, val_main_call0_cst_apply]
  simp only [l10, r10, l11, r11, ib1, Ideal.maximumf_def, Ideal.addf_def, Ideal.ofBits_def, pre, rowOf, matOf, vecOf]

/-! ## The second layer's pre-activations -/

theorem l27 (r : Fin 100000) (q : Fin 8) (k : Fin 128) : lidx_main_v27 (ix2 r q) k = ix2 r k := funext fun a => match a with | ⟨0, _⟩ => rfl | ⟨1, _⟩ => rfl
theorem r27 (r : Fin 100000) (q : Fin 8) (k : Fin 128) : ridx_main_v27 (ix2 r q) k = ix2 k q := funext fun a => match a with | ⟨0, _⟩ => rfl | ⟨1, _⟩ => rfl
theorem l28 (r : Fin 100000) (q : Fin 8) (k : Fin 128) : lidx_main_v28 (ix2 r q) k = ix2 r k := funext fun a => match a with | ⟨0, _⟩ => rfl | ⟨1, _⟩ => rfl
theorem r28 (r : Fin 100000) (q : Fin 8) (k : Fin 128) : ridx_main_v28 (ix2 r q) k = ix2 k q := funext fun a => match a with | ⟨0, _⟩ => rfl | ⟨1, _⟩ => rfl
theorem ib2 (r : Fin 100000) (q : Fin 8) : idx_main_v30 (idx_main_v31 (ix2 r q)) = ix1 q := funext fun a => match a with | ⟨0, _⟩ => rfl

/-- Row r of the second convolution is the layer's pre-activation of row r of the aggregated and the plain hidden features. -/
theorem v32_row (r : Fin 100000) :
    rowOf (val_main_v32 (F := Ideal) x0 x1 x2 x3 x4 x5 x6 x7 x8) r
      = pre (rowOf (val_main_v26 (F := Ideal) x0 x1 x2 x3 x4 x5) r) (rowOf (val_main_v16 (F := Ideal) x0 x1 x2 x3 x4 x5) r) (matOf x6) (matOf x7) (vecOf x8) := by
  funext q
  show val_main_v32 (F := Ideal) x0 x1 x2 x3 x4 x5 x6 x7 x8 (ix2 r q) = _
  rw [val_main_v32_apply, val_main_v29_apply, val_main_v27_apply, val_main_v28_apply, val_main_v31_apply, val_main_v30_apply]
  simp only [l27, r27, l28, r28, ib2, Ideal.addf_def, pre, rowOf, matOf, vecOf]

/-! ## The row-wise log-softmax -/

/-- Inserting channel k into a row index gives the entry (r, k). -/
theorem lift_row (h : S100000x8.Reduces [1] S100000) (r : Fin 100000) (k : Fin 8) : h.lift (ix1 r) k = ix2 r k :=
  funext fun a => Fin.ext (by
    match a with
    | ⟨0, _⟩ => rfl
    | ⟨1, _⟩ => rfl)

/-- The host's row-wise log-softmax of any array `Z`, operation for operation as the reference spells it: the row maximum
    by a reduction from the format's most negative value, taken once more against a splat of that value, kept as a column
    and spread back; the difference; its exponentials summed per row from zero, the logarithm kept as a column and spread
    back; the second difference. -/
def hostLsm (Z : FVec Ideal S100000x8 .f32) : FVec Ideal S100000x8 .f32 :=
  subf (subf Z (broadcastInDim S100000x8 ![0, 1] bcast_S100000x1_S100000x8_0_1 (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x8_S100000_d1 h_S_)))))
    (broadcastInDim S100000x8 ![0, 1] bcast_S100000x1_S100000x8_0_1 (Host.log (broadcastInDim S100000x1 ![0] bcast_S100000_S100000x1_0
      (Host.reduceAdd (Host.exp (subf Z (broadcastInDim S100000x8 ![0, 1] bcast_S100000x1_S100000x8_0_1 (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x8_S100000_d1 h_S_)))))) (constant (F := Ideal) S_ .f32 0x00000000#32) reducesTo_S100000x8_S100000_d1 h_S_))))

/-- The reference's last stage is that softmax of its second convolution: the stages' definitions, unfolded. -/
theorem v33_is : val_main_v33 (F := Ideal) x0 x1 x2 x3 x4 x5 x6 x7 x8 = hostLsm (val_main_v32 (F := Ideal) x0 x1 x2 x3 x4 x5 x6 x7 x8) := by
  unfold val_main_v33 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst hostLsm
  rfl

/-- A vector of row results kept as a column and spread across the eight channels reads, at (r, q), the vector at r. -/
theorem col_at (v : FVec Ideal S100000 .f32) (r : Fin 100000) (q : Fin 8) :
    broadcastInDim S100000x8 ![0, 1] bcast_S100000x1_S100000x8_0_1 (broadcastInDim S100000x1 ![0] bcast_S100000_S100000x1_0 v) (ix2 r q)
      = v (ix1 r) := by
  refine (broadcastInDim_apply _ bcast_S100000x1_S100000x8_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  exact broadcastInDim_apply _ bcast_S100000_S100000x1_0 v (ix2 r (0 : Fin 1)) (ix1 r) (fun a => match a with
    | ⟨0, _⟩ => by show r.val = if (100000 : Nat) = 1 then 0 else r.val; rw [if_neg (by decide)])

/-- The host's logarithm and exponential of an array at an entry. -/
theorem hostlog_at (W : FVec Ideal S100000x1 .f32) (i : S100000x1.Idx) : Host.log (F := Ideal) W i = Ideal.log (W i) := rfl
theorem hostexp_at (W : FVec Ideal S100000x8 .f32) (i : S100000x8.Idx) : Host.exp (F := Ideal) W i = Ideal.exp (W i) := rfl

/-- The same with the logarithm taken on the column. -/
theorem logcol_at (v : FVec Ideal S100000 .f32) (r : Fin 100000) (q : Fin 8) :
    broadcastInDim S100000x8 ![0, 1] bcast_S100000x1_S100000x8_0_1
        (Host.log (F := Ideal) (φ := .f32) (broadcastInDim S100000x1 ![0] bcast_S100000_S100000x1_0 v)) (ix2 r q)
      = Ideal.log (v (ix1 r)) := by
  refine (broadcastInDim_apply _ bcast_S100000x1_S100000x8_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  rw [hostlog_at]
  exact congrArg Ideal.log (broadcastInDim_apply _ bcast_S100000_S100000x1_0 v (ix2 r (0 : Fin 1)) (ix1 r) (fun a => match a with
    | ⟨0, _⟩ => by show r.val = if (100000 : Nat) = 1 then 0 else r.val; rw [if_neg (by decide)]))

/-- Over the extended reals the float maximum is max, so a fold of one is the fold of the other. -/
theorem fold_maximumf_eq {ι : Type} [Fintype ι] (z : ι → EReal) (c : EReal) :
    Finset.fold (FloatOps.maximumf (F := Ideal) (φ := .f32)) c z Finset.univ = Finset.fold max c z Finset.univ := rfl

/-- The host's row maximum of any array `Z`, taken once more against a splat of its fold's starting value, is the row's
    maximum: the reduction over the channel axis is the fold of max from the starting value over row r's entries, and the
    starting value is never above that fold. -/
theorem host_rowmax (Z : FVec Ideal S100000x8 .f32) (r : Fin 100000) :
    maximumf (broadcastInDim S100000 ![] bcast_S_S100000 (constant (F := Ideal) S_ .f32 0xFF800000#32))
        (Host.reduce FloatOps.maximumf Z (constant (F := Ideal) S_ .f32 0xFF800000#32) reducesTo_S100000x8_S100000_d1 h_S_) (ix1 r)
      = rowMax (rowOf Z r) := by
  have h : S100000x8.Reduces [1] S100000 := by decide
  rw [maximumf_apply]
  rw [Host.reduce_eq_fold_single FloatOps.maximumf _ _ reducesTo_S100000x8_S100000_d1 h h_S_ (ix1 r)]
  have e : (Z ∘ h.lift (ix1 r)) = rowOf Z r := funext fun k => congrArg Z (lift_row h r k)
  rw [e, broadcastInDim_apply _ bcast_S_S100000 _ (ix1 r) (fun a => a.elim0) (fun a => a.elim0), constant_apply, constant_apply]
  unfold rowMax
  refine (congrArg (max (Ideal.ofBits .f32 0xFF800000#32)) (fold_maximumf_eq (rowOf Z r) _)).trans ?_
  exact max_eq_right ((Finset.le_fold_max _).mpr (Or.inl le_rfl))

/-- The host's row sum from zero of any array `W` is the sum of row r's entries. -/
theorem host_rowsum (W : FVec Ideal S100000x8 .f32) (r : Fin 100000) :
    Host.reduceAdd W (constant (F := Ideal) S_ .f32 0x00000000#32) reducesTo_S100000x8_S100000_d1 h_S_ (ix1 r) = ∑ k : Fin 8, W (ix2 r k) := by
  have h : S100000x8.Reduces [1] S100000 := by decide
  simp only [Host.reduceAdd, Ideal.hostReduceAdd_def]
  rw [Ideal.hostReduceAdd_single reducesTo_S100000x8_S100000_d1 h, constant_apply, Ideal.ofBits_zero_f32, zero_add]
  exact Finset.sum_congr rfl fun k _ => congrArg W (lift_row h r k)

/-- The host softmax of any array at entry (r, q) is the log-softmax of its row r at channel q. -/
theorem hostLsm_at (Z : FVec Ideal S100000x8 .f32) (r : Fin 100000) (q : Fin 8) : hostLsm Z (ix2 r q) = lsm (rowOf Z r) q := by
  unfold hostLsm
  rw [subf_apply, subf_apply, col_at _ r q, logcol_at _ r q, host_rowsum _ r, host_rowmax Z r]
  have es : ∀ k : Fin 8, (Host.exp (F := Ideal) (subf Z (broadcastInDim S100000x8 ![0, 1] bcast_S100000x1_S100000x8_0_1 (broadcastInDim S100000x1 ![0] bcast_S100000_S100000x1_0
      (maximumf (broadcastInDim S100000 ![] bcast_S_S100000 (constant (F := Ideal) S_ .f32 0xFF800000#32))
        (Host.reduce FloatOps.maximumf Z (constant (F := Ideal) S_ .f32 0xFF800000#32) reducesTo_S100000x8_S100000_d1 h_S_)))))) (ix2 r k)
      = Ideal.exp (Z (ix2 r k) - rowMax (rowOf Z r)) := fun k => by
    rw [hostexp_at, subf_apply, col_at _ r k, host_rowmax Z r]
  rw [Finset.sum_congr rfl fun k _ => es k]
  rfl

/-- Entry (r, q) of the reference's result is the log-softmax of row r of the second convolution at channel q. -/
theorem v33_at (r : Fin 100000) (q : Fin 8) :
    val_main_v33 (F := Ideal) x0 x1 x2 x3 x4 x5 x6 x7 x8 (ix2 r q) = lsm (rowOf (val_main_v32 (F := Ideal) x0 x1 x2 x3 x4 x5 x6 x7 x8) r) q :=
  (congrFun (v33_is x0 x1 x2 x3 x4 x5 x6 x7 x8) (ix2 r q)).trans (hostLsm_at _ r q)

/-- The reference's result is the second layer of the aggregated and the plain relu of the first convolution. -/
theorem v33_eq :
    val_main_v33 (F := Ideal) x0 x1 x2 x3 x4 x5 x6 x7 x8 = layer2 (R := 100000) (val_main_v26 (F := Ideal) x0 x1 x2 x3 x4 x5) (val_main_v16 (F := Ideal) x0 x1 x2 x3 x4 x5) x6 x7 (vecOf x8) := by
  funext i
  obtain ⟨r, q, rfl⟩ : ∃ (r : Fin 100000) (q : Fin 8), i = ix2 r q := ⟨c0 i, c1 i, eq_ix2_c i⟩
  rw [v33_at, layer2_ix2, v32_row]

/-- The hidden features: the first layer of the aggregated and the plain node features. -/
abbrev hidden : S100000x128.Idx → EReal := layer1 (R := 100000) (aggR x0 x1 x2) x0 x3 x4 (vecOf x5)

/-- The program's result: the second layer of the aggregated and the plain hidden features. -/
abbrev output : S100000x8.Idx → EReal :=
  layer2 (R := 100000) (aggR (hidden x0 x1 x2 x3 x4 x5) x1 x2) (hidden x0 x1 x2 x3 x4 x5) x6 x7 (vecOf x8)

/-- The reference's last stage is that output function of the arguments. -/
theorem result_eq : val_main_v33 (F := Ideal) x0 x1 x2 x3 x4 x5 x6 x7 x8 = output x0 x1 x2 x3 x4 x5 x6 x7 x8 := by
  rw [v33_eq, v26_eq, v16_eq, v9_eq]

/-- The run, read: the result buffer at the output function, every argument as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h c).1.trans ((val_main_v33_eq (F := Ideal) m c).trans (result_eq _ _ _ _ _ _ _ _ _)), (h c).2⟩)
    (Cert.ReferenceIdeal.ValueP.run (F := Ideal) m ρ)

end Cert.ReferenceIdeal.RefValue

end
-- ==== Proof.lean ====
/-
  A two-layer GraphSAGE network with sum aggregation, as a Pallas kernel program against its jnp reference, over the
  extended reals.

  Both programs aggregate over the edge list on the host: the rows of an array at the edges' source indices are gathered
  and added into a zero array at the destination indices.  Both apply that one function twice, to the node features X and
  to the hidden features H, so it is carried as it stands and never opened.  Between and after the aggregations they
  compute
      H   = max (agg X · Wn₁ + X · Ws₁ + b₁) 0            (100000 × 128)
      out = log-softmax over the 8 channels of  agg H · Wn₂ + H · Ws₂ + b₂      (100000 × 8).
  The kernel program computes each layer in a region of twenty 5000-row tiles, its matrix products in bf16 into a zero
  accumulator; the reference computes them whole on the host.  Over the extended reals a change of float format is the
  identity and a product into a zero accumulator is the plain sum, the tiles cover the rows, and every output row depends
  only on the same row of the inputs, so region by region the kernel's output array is the layer of the arrays it was
  entered with.  The two programs' additions and subtractions come in the same order, and the reference's extra maximum
  of each row's maximum with the fold's own starting value changes nothing; no law that needs finite inputs is used.

  The three frames: the two kernel programs' are generated whole; the reference's is its run with the result dropped.  The
  idealization rewrote no operation, so its claim is trivial.
-/
import proofs.«106490_j32504312496300_1_alg».proof.Defs
import proofs.«106490_j32504312496300_1_alg».proof.Proof.Gen.Kernel
import proofs.«106490_j32504312496300_1_alg».proof.Proof.Gen.Kernel.Skeleton
import proofs.«106490_j32504312496300_1_alg».proof.Proof.Gen.Kernel.Launch
import proofs.«106490_j32504312496300_1_alg».proof.Proof.Gen.Kernel.Points
import proofs.«106490_j32504312496300_1_alg».proof.Proof.Gen.Kernel.Frame
import proofs.«106490_j32504312496300_1_alg».proof.Proof.Gen.KernelIdeal
import proofs.«106490_j32504312496300_1_alg».proof.Proof.Gen.KernelIdeal.Skeleton
import proofs.«106490_j32504312496300_1_alg».proof.Proof.Gen.KernelIdeal.Launch
import proofs.«106490_j32504312496300_1_alg».proof.Proof.Gen.KernelIdeal.Points
import proofs.«106490_j32504312496300_1_alg».proof.Proof.Gen.KernelIdeal.Frame
import proofs.«106490_j32504312496300_1_alg».proof.Proof.Gen.ReferenceIdeal
import proofs.«106490_j32504312496300_1_alg».proof.Proof.Gen.Pre_finite_inputs
import proofs.«106490_j32504312496300_1_alg».proof.Proof.KValue
import proofs.«106490_j32504312496300_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs print the same gather record and the same scatter record. -/
theorem gather_same : Cert.KernelIdeal.gather_S100000x128_S1600000x1_S1600000x128_1_0_n_n_0_1_1128 = Cert.ReferenceIdeal.gather_S100000x128_S1600000x1_S1600000x128_1_0_n_n_0_1_1128 := rfl
theorem scatter_same : Cert.KernelIdeal.scatter_S100000x128_S1600000x1_S1600000x128_1_0_0_1 = Cert.ReferenceIdeal.scatter_S100000x128_S1600000x1_S1600000x128_1_0_0_1 := rfl

/-- So their instances of the shared aggregation are one function (the broadcast facts are propositions). -/
theorem agg_same : Cert.KernelIdeal.KValue.aggK = Cert.ReferenceIdeal.RefValue.aggR := by
  unfold Cert.KernelIdeal.KValue.aggK Cert.ReferenceIdeal.RefValue.aggR
  rw [gather_same, scatter_same]

/-- Both programs end with their result at one function of the arguments: the kernel program by its two regions'
    final arrays read through the host stretches, the reference stage by stage; the two spellings differ only in which
    program's records the shared aggregation is instantiated at. -/
theorem algebraic : Cert.algebraic_KernelIdeal_ReferenceIdeal := by
  intro m ρ m' ρ' _ hagree
  refine ⟨fun c => Cert.KernelIdeal.KValue.output m c, Cert.KernelIdeal.KValue.run m ρ, ?_⟩
  refine (θ_run Cert.ReferenceIdeal.defs _ _).mono (fun _ h c => ⟨(h c).1.trans ?_, (h c).2⟩) (Cert.ReferenceIdeal.RefValue.run m' ρ')
  obtain ⟨e0, e1, e2, e3, e4, e5, e6, e7, e8⟩ := hagree c
  rw [e0, e1, e2, e3, e4, e5, e6, e7, e8]
  simp only [Cert.ReferenceIdeal.RefValue.output, Cert.ReferenceIdeal.RefValue.hidden, Cert.KernelIdeal.KValue.output, Cert.KernelIdeal.KValue.hidden, agg_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
